-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel

variable [Facts]

def fn {F : FTy → Type} [FloatOps F] (main_arg0 : FVec F S2x16x2048x64 .f32) (main_arg1 : FVec F S2x16x2048x64 .f32) (main_arg2 : FVec F S2x16x2048x64 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  main_v13
-- ==== Kernel.lean ====
abbrev S2x16x2048x64 : Shape := ⟨4, ![2, 16, 2048, 64]⟩
abbrev S32x2048x64 : Shape := ⟨3, ![32, 2048, 64]⟩
abbrev S32x2048x2048 : Shape := ⟨3, ![32, 2048, 2048]⟩
abbrev S1x512x64 : Shape := ⟨3, ![1, 512, 64]⟩
abbrev S1x2048x64 : Shape := ⟨3, ![1, 2048, 64]⟩
abbrev S1x512x2048 : Shape := ⟨3, ![1, 512, 2048]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S512 : Shape := ⟨1, ![512]⟩
abbrev S512x1 : Shape := ⟨2, ![512, 1]⟩
abbrev S2x16x2048x2048 : Shape := ⟨4, ![2, 16, 2048, 2048]⟩

abbrev nBuf : Space → Nat
  | .hbm => 10
  | .vmem => 10
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S32x2048x64, .f32⟩
  | .hbm, ⟨4, _⟩ => ⟨S32x2048x64, .f32⟩
  | .hbm, ⟨5, _⟩ => ⟨S32x2048x64, .f32⟩
  | .hbm, ⟨6, _⟩ => ⟨S32x2048x64, .f32⟩
  | .hbm, ⟨7, _⟩ => ⟨S32x2048x2048, .f32⟩
  | .hbm, ⟨8, _⟩ => ⟨S2x16x2048x64, .f32⟩
  | .hbm, ⟨9, _⟩ => ⟨S2x16x2048x2048, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .vmem, ⟨8, _⟩ => ⟨S1x512x2048, .f32⟩
  | .local _ .vmem, ⟨9, _⟩ => ⟨S1x512x2048, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![32, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S2x16x2048x64_S32x2048x64 : S2x16x2048x64.ShapeCasts S32x2048x64
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  bitsLt_bf16_f32 : FTy.bits .bf16 < FTy.bits .f32
  transposes_S2048x64_p1_0_S64x2048 : S2048x64.Transposes [1, 0] S64x2048
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  shapeCasts_S512x2048_S1x512x2048 : S512x2048.ShapeCasts S1x512x2048
  shapeCasts_S32x2048x64_S2x16x2048x64 : S32x2048x64.ShapeCasts S2x16x2048x64
  shapeCasts_S32x2048x2048_S2x16x2048x2048 : S32x2048x2048.ShapeCasts S2x16x2048x2048
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S32x2048x64.size a
  hwx0_0 : ∀ i : grid0.Coords, EltTy.bits .f32 = 32 ∨ (Rect.block (s := S32x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S32x2048x64.size a
  hwx0_1 : ∀ i : grid0.Coords, EltTy.bits .f32 = 32 ∨ (Rect.block (s := S32x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S32x2048x64.size a
  hwx0_2 : ∀ i : grid0.Coords, EltTy.bits .f32 = 32 ∨ (Rect.block (s := S32x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S32x2048x64.size a
  hwx0_3 : ∀ i : grid0.Coords, EltTy.bits .f32 = 32 ∨ (Rect.block (s := S32x2048x64) S1x512x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x2048.size a ≤ S32x2048x2048.size a
  hwx0_4 : ∀ i : grid0.Coords, EltTy.bits .f32 = 32 ∨ (Rect.block (s := S32x2048x2048) S1x512x2048.size (cc0_transform_4 i) (hinb0_4 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev win0_0 : Pipeline.Window sig grid0 :=
  Pipeline.Window.ofSpec (Memref.whole main_v0) S1x512x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_0) S1x512x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_1) S1x512x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x16x2048x2048 : Shape := ⟨4, ![2, 16, 2048, 2048]⟩
abbrev S_ : Shape := ⟨0, ![]⟩
abbrev S2x16x2048 : Shape := ⟨3, ![2, 16, 2048]⟩
abbrev S2x16x2048x1 : Shape := ⟨4, ![2, 16, 2048, 1]⟩

abbrev nBuf : Space → Nat
  | .hbm => 27
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x16x2048x2048, .f32⟩
  | .hbm, ⟨4, _⟩ => ⟨S_, .f32⟩
  | .hbm, ⟨5, _⟩ => ⟨S2x16x2048x2048, .f32⟩
  | .hbm, ⟨6, _⟩ => ⟨S2x16x2048x2048, .f32⟩
  | .hbm, ⟨7, _⟩ => ⟨S_, .f32⟩
  | .hbm, ⟨8, _⟩ => ⟨S2x16x2048, .f32⟩
  | .hbm, ⟨9, _⟩ => ⟨S2x16x2048x1, .f32⟩
  | .hbm, ⟨10, _⟩ => ⟨S2x16x2048x2048, .f32⟩
  | .hbm, ⟨11, _⟩ => ⟨S2x16x2048x2048, .f32⟩
  | .hbm, ⟨12, _⟩ => ⟨S_, .f32⟩
  | .hbm, ⟨13, _⟩ => ⟨S2x16x2048, .f32⟩
  | .hbm, ⟨14, _⟩ => ⟨S_, .f32⟩
  | .hbm, ⟨15, _⟩ => ⟨S2x16x2048, .f32⟩
  | .hbm, ⟨16, _⟩ => ⟨S2x16x2048, .f32⟩
  | .hbm, ⟨17, _⟩ => ⟨S2x16x2048x1, .f32⟩
  | .hbm, ⟨18, _⟩ => ⟨S2x16x2048x2048, .f32⟩
  | .hbm, ⟨19, _⟩ => ⟨S2x16x2048x2048, .f32⟩
  | .hbm, ⟨20, _⟩ => ⟨S2x16x2048x2048, .f32⟩
  | .hbm, ⟨21, _⟩ => ⟨S_, .f32⟩
  | .hbm, ⟨22, _⟩ => ⟨S2x16x2048, .f32⟩
  | .hbm, ⟨23, _⟩ => ⟨S2x16x2048x1, .f32⟩
  | .hbm, ⟨24, _⟩ => ⟨S2x16x2048x2048, .f32⟩
  | .hbm, ⟨25, _⟩ => ⟨S2x16x2048x2048, .f32⟩
  | .hbm, ⟨26, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  reducesTo_S2x16x2048x2048_S2x16x2048_d3 : S2x16x2048x2048.ReducesTo [3] S2x16x2048
  h_S_ : 0 < S_.numel
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  bcast_S_S2x16x2048 : S_.BroadcastsInDim S2x16x2048 (![] : Fin 0 → Fin S2x16x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Spec.lean ====
/-
  Scaled dot-product attention over [2, 16, 2048, 64] queries, keys and values, as ONE function of the three
  arrays, index by index on the extended reals.

  For batch b, head h and query row i the scores are  s(j) = (Σ_d Q[b,h,i,d] · K[b,h,j,d]) / 8  over the 2048 keys j.
  Both programs then take the row's maximum (a fold of max from the word 0xFF800000), subtract it, take the
  maximum of the shifted row once more (the stable softmax's own shift), subtract that, exponentiate, and divide by
  the row's sum: the weights  W[b,h,i,j].  The output is  O[b,h,i,d] = Σ_j W[b,h,i,j] · V[b,h,j,d].

  One program divides the scores by the word for 8.0, the other multiplies them by the word for 0.125; on the
  extended reals a quotient by a nonzero real is the product with its reciprocal, at the infinities too
  (scale_eq), so the two spellings are one function and no finiteness is needed anywhere.
-/
import Idealize.ShloMosaic.PureOps.Ideal
import Idealize.ShloMosaic.PureOps.Ideal.Laws
import Idealize.ShloMosaic.Lib.ValueIdx

noncomputable section

namespace Cert.Attention

open Idealize.ShloMosaic Idealize.ShloMosaic.ValueIdx

/-- The value every row maximum starts from, as both programs write it (the word denotes −∞; what it denotes is never used). -/
abbrev negInf : EReal := Ideal.ofBits .f32 0xFF800000#32

/-- A row's maximum: the fold of max from that starting value over the row's entries. -/
def rowMax {n : Nat} (s : Fin n → EReal) : EReal := (Finset.univ : Finset (Fin n)).fold max negInf s

/-- A row shifted by its own maximum. -/
def shifted {n : Nat} (s : Fin n → EReal) (j : Fin n) : EReal := s j - rowMax s

/-- The exponentials of a row of scores: shifted by the row's maximum, then by the (clamped) maximum of the shifted row. -/
def expRow {n : Nat} (s : Fin n → EReal) (j : Fin n) : EReal :=
  Ideal.exp (shifted s j - max negInf (rowMax (shifted s)))

/-- The softmax of a row of scores: each exponential over the row's sum of exponentials. -/
def softRow {n : Nat} (s : Fin n → EReal) (j : Fin n) : EReal :=
  Ideal.div (expRow s j) (∑ j' : Fin n, expRow s j')

/-- The four-axis arrays the three arguments are, and the weights array. -/
abbrev QKV : Shape := ⟨4, ![2, 16, 2048, 64]⟩
abbrev WW : Shape := ⟨4, ![2, 16, 2048, 2048]⟩

/-- The score of query row i against key row j: their inner product over the 64 features, over 8. -/
def score (Q K : QKV.Idx → EReal) (b : Fin 2) (h : Fin 16) (i j : Fin 2048) : EReal :=
  Ideal.div (∑ d : Fin 64, Q (ix4 b h i d) * K (ix4 b h j d)) (Ideal.ofBits .f32 0x41000000#32)

/-- The attention weights. -/
def weights (Q K : QKV.Idx → EReal) (b : Fin 2) (h : Fin 16) (i j : Fin 2048) : EReal :=
  softRow (fun j' => score Q K b h i j') j

/-- The attention output: each query row's weights against the values. -/
def output (Q K V : QKV.Idx → EReal) (b : Fin 2) (h : Fin 16) (i : Fin 2048) (d : Fin 64) : EReal :=
  ∑ j : Fin 2048, weights Q K b h i j * V (ix4 b h j d)

/-- The two results as arrays. -/
def weightsArr (Q K : QKV.Idx → EReal) : WW.Idx → EReal := fun x => weights Q K (x 0) (x 1) (x 2) (x 3)
def outputArr (Q K V : QKV.Idx → EReal) : QKV.Idx → EReal := fun x => output Q K V (x 0) (x 1) (x 2) (x 3)

/-! ### The same on the arrays with batch and head merged

One program works on [32, 2048, 64] arrays (batch and head merged into one axis g = 16·b + h) and scales the scores by the
word for 0.125. -/

abbrev QKV3 : Shape := ⟨3, ![32, 2048, 64]⟩
abbrev WW3 : Shape := ⟨3, ![32, 2048, 2048]⟩

/-- The score on the merged arrays: the inner product times 0.125. -/
def score3 (q k : QKV3.Idx → EReal) (g : Fin 32) (i j : Fin 2048) : EReal :=
  (∑ d : Fin 64, q (ix3 g i d) * k (ix3 g j d)) * Ideal.ofBits .f32 0x3E000000#32

def weights3 (q k : QKV3.Idx → EReal) (g : Fin 32) (i j : Fin 2048) : EReal :=
  softRow (fun j' => score3 q k g i j') j

def output3 (q k v : QKV3.Idx → EReal) (g : Fin 32) (i : Fin 2048) (d : Fin 64) : EReal :=
  ∑ j : Fin 2048, weights3 q k g i j * v (ix3 g j d)

def weightsArr3 (q k : QKV3.Idx → EReal) : WW3.Idx → EReal := fun x => weights3 q k (x 0) (x 1) (x 2)
def outputArr3 (q k v : QKV3.Idx → EReal) : QKV3.Idx → EReal := fun x => output3 q k v (x 0) (x 1) (x 2)

/-- The word 0x41000000 denotes 8 and the word 0x3E000000 denotes 1/8. -/
theorem ofBits_eight : Ideal.ofBits .f32 0x41000000#32 = ((8 : ℝ) : EReal) := by
  simp [Ideal.ofBits, Ideal.ieee, -EReal.coe_mul]; norm_num
theorem ofBits_eighth : Ideal.ofBits .f32 0x3E000000#32 = ((1 / 8 : ℝ) : EReal) := by
  simp [Ideal.ofBits, Ideal.ieee, -EReal.coe_mul]; norm_num

/-- Scaling by 0.125 is dividing by 8.0, on every extended real. -/
theorem scale_eq (x : EReal) :
    x * Ideal.ofBits .f32 0x3E000000#32 = Ideal.div x (Ideal.ofBits .f32 0x41000000#32) := by
  rw [ofBits_eight, ofBits_eighth, Ideal.div_coe (by norm_num : (8 : ℝ) ≠ 0)]

end Cert.Attention

end
-- ==== Proof.RefValue.lean ====
/-
  The reference computes the specification.

  The reference program is read one operation at a time, each at an index written out in its coordinates
  (batch b, head h, query row i, key j or feature d):

    the first contraction over the 64 features, divided by 8, is the score s(j) of row (b, h, i);
    the first reduction by max over the keys is the row's maximum, and the subtraction gives the shifted row;
    the second reduction is the maximum of the shifted row, clamped from below by the starting value of the fold;
    after the second subtraction the exponential gives the row of exponentials, whose sum over the keys
    (from the zero word, which adds nothing) is the denominator; the quotient is the row's softmax: the weights;
    the last contraction over the keys is the weights against the values: the output.

  A reduction over the last axis at (b, h, i) folds over the indices (b, h, i, k), k running over the 2048 keys;
  a broadcast from [2,16,2048] through [2,16,2048,1] to [2,16,2048,2048] reads (b, h, i) at every key.
-/
import proofs.«172985_j9354438771232_1_alg».proof.Proof.Gen.ReferenceIdeal.Read
import proofs.«172985_j9354438771232_1_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.ValueIdx
open Cert.ReferenceIdeal Cert.ReferenceIdeal.Gen Cert.ReferenceIdeal.Read Cert.Attention

/-- The arrays the three arguments are. -/
abbrev Arr : Type := (⟨S2x16x2048x64, .f32⟩ : BufTy).Contents (Elt Ideal)

/-- The row of scores of query row (b, h, i). -/
abbrev srow (x0 x1 : Arr) (b : Fin 2) (h : Fin 16) (i : Fin 2048) : Fin 2048 → EReal :=
  fun j' => score x0 x1 b h i j'

/-! ### Indices -/

/-- The shape fact the one-axis reading of a reduction over the keys takes. -/
theorem reducesKeys : S2x16x2048x2048.Reduces [3] S2x16x2048 := by decide

/-- The reduced index (b, h, i) with key k put back is (b, h, i, k). -/
theorem lift_keys (b : Fin 2) (h : Fin 16) (i : Fin 2048) (k : Fin (S2x16x2048x2048.size 3)) :
    reducesKeys.lift (ix3 b h i) k = ix4 b h i (⟨k.val, k.isLt⟩ : Fin 2048) :=
  funext fun a => Fin.ext (by match a with | ⟨0, _⟩ => rfl | ⟨1, _⟩ => rfl | ⟨2, _⟩ => rfl | ⟨3, _⟩ => rfl)

/-- The two broadcasts read (b, h, i) at every key. -/
theorem idx_bcast (b : Fin 2) (h : Fin 16) (i j : Fin 2048) :
    idx_main_v4 (idx_main_v5 (ix4 b h i j)) = ix3 b h i :=
  funext fun a => Fin.ext (by match a with | ⟨0, _⟩ => rfl | ⟨1, _⟩ => rfl | ⟨2, _⟩ => rfl)

theorem lidx0 (b : Fin 2) (h : Fin 16) (i j : Fin 2048) (k : Fin 64) :
    lidx_main_v0 (ix4 b h i j) k = ix4 b h i k :=
  funext fun a => Fin.ext (by match a with | ⟨0, _⟩ => rfl | ⟨1, _⟩ => rfl | ⟨2, _⟩ => rfl | ⟨3, _⟩ => rfl)

theorem ridx0 (b : Fin 2) (h : Fin 16) (i j : Fin 2048) (k : Fin 64) :
    ridx_main_v0 (ix4 b h i j) k = ix4 b h j k :=
  funext fun a => Fin.ext (by match a with | ⟨0, _⟩ => rfl | ⟨1, _⟩ => rfl | ⟨2, _⟩ => rfl | ⟨3, _⟩ => rfl)

theorem idx14 (b : Fin 2) (h : Fin 16) (i k : Fin 2048) :
    idx_main_v14 (ix3 b h i) k = ix4 b h i k :=
  funext fun a => Fin.ext (by match a with | ⟨0, _⟩ => rfl | ⟨1, _⟩ => rfl | ⟨2, _⟩ => rfl | ⟨3, _⟩ => rfl)

theorem lidx18 (b : Fin 2) (h : Fin 16) (i : Fin 2048) (d : Fin 64) (k : Fin 2048) :
    lidx_main_v18 (ix4 b h i d) k = ix4 b h i k :=
  funext fun a => Fin.ext (by match a with | ⟨0, _⟩ => rfl | ⟨1, _⟩ => rfl | ⟨2, _⟩ => rfl | ⟨3, _⟩ => rfl)

theorem ridx18 (b : Fin 2) (h : Fin 16) (i : Fin 2048) (d : Fin 64) (k : Fin 2048) :
    ridx_main_v18 (ix4 b h i d) k = ix4 b h k d :=
  funext fun a => Fin.ext (by match a with | ⟨0, _⟩ => rfl | ⟨1, _⟩ => rfl | ⟨2, _⟩ => rfl | ⟨3, _⟩ => rfl)

/-! ### A reduction by max over the keys -/

/-- From the starting word, the reduction by max over the keys of an array whose row (b, h, i) is r is the maximum of r. -/
theorem reduceMax_at (y : S2x16x2048x2048.Idx → EReal) (init : S_.Idx → EReal)
    (hinit : ∀ z, init z = negInf) (b : Fin 2) (h : Fin 16) (i : Fin 2048) (r : Fin 2048 → EReal)
    (hr : ∀ k : Fin 2048, y (ix4 b h i k) = r k) :
    Host.reduce (FloatOps.maximumf (F := Ideal) (φ := .f32)) y init reducesTo_S2x16x2048x2048_S2x16x2048_d3 h_S_ (ix3 b h i)
      = rowMax r := by
  rw [Host.reduce_eq_fold_single (FloatOps.maximumf (F := Ideal) (φ := .f32)) y init
    reducesTo_S2x16x2048x2048_S2x16x2048_d3 reducesKeys h_S_ (ix3 b h i), hinit]
  have hf : (y ∘ reducesKeys.lift (ix3 b h i)) = r := funext fun k => by
    show y (reducesKeys.lift (ix3 b h i) k) = r k
    rw [lift_keys]; exact hr _
  rw [hf]
  rfl

/-! ### The stages, in program order -/

section Stages

variable (x0 x1 : Arr)

/-- The contraction over the features, over 8: the score. -/
theorem v2_at (b : Fin 2) (h : Fin 16) (i j : Fin 2048) :
    val_main_v2 (F := Ideal) x0 x1 (ix4 b h i j) = score x0 x1 b h i j := by
  rw [val_main_v2_apply, val_main_v0_apply, val_main_v1_apply, val_main_cst_apply]
  unfold score
  rw [Ideal.hostDivf_def, Ideal.ofBits_def]
  refine congrArg (fun t => Ideal.div t _) (Finset.sum_congr rfl fun k _ => ?_)
  rw [lidx0, ridx0]

/-- The first reduction: the row's maximum. -/
theorem v3_at (b : Fin 2) (h : Fin 16) (i : Fin 2048) :
    val_main_v3 (F := Ideal) x0 x1 (ix3 b h i) = rowMax (srow x0 x1 b h i) := by
  unfold val_main_v3
  exact reduceMax_at _ _ (fun z => rfl) b h i _ (fun k => v2_at x0 x1 b h i k)

/-- The row's maximum, at every key. -/
theorem v5_at (b : Fin 2) (h : Fin 16) (i j : Fin 2048) :
    val_main_v5 (F := Ideal) x0 x1 (ix4 b h i j) = rowMax (srow x0 x1 b h i) := by
  rw [val_main_v5_apply, val_main_v4_apply, idx_bcast, v3_at]

/-- The row shifted by its maximum. -/
theorem v6_at (b : Fin 2) (h : Fin 16) (i j : Fin 2048) :
    val_main_v6 (F := Ideal) x0 x1 (ix4 b h i j) = shifted (srow x0 x1 b h i) j := by
  rw [val_main_v6_apply, v2_at, v5_at, Ideal.subf_def]
  rfl

/-- The second reduction: the maximum of the shifted row. -/
theorem v7_at (b : Fin 2) (h : Fin 16) (i : Fin 2048) :
    val_main_v7 (F := Ideal) x0 x1 (ix3 b h i) = rowMax (shifted (srow x0 x1 b h i)) := by
  unfold val_main_v7
  exact reduceMax_at _ _ (fun z => rfl) b h i _ (fun k => v6_at x0 x1 b h i k)

/-- … clamped from below by the starting value. -/
theorem v9_at (b : Fin 2) (h : Fin 16) (i : Fin 2048) :
    val_main_v9 (F := Ideal) x0 x1 (ix3 b h i) = max negInf (rowMax (shifted (srow x0 x1 b h i))) := by
  rw [val_main_v9_apply, val_main_v8_apply, val_main_cst_2_apply, v7_at, Ideal.maximumf_def, Ideal.ofBits_def]

theorem v11_at (b : Fin 2) (h : Fin 16) (i j : Fin 2048) :
    val_main_v11 (F := Ideal) x0 x1 (ix4 b h i j) = max negInf (rowMax (shifted (srow x0 x1 b h i))) := by
  rw [val_main_v11_apply, val_main_v10_apply]
  exact (congrArg (val_main_v9 (F := Ideal) x0 x1) (idx_bcast b h i j)).trans (v9_at x0 x1 b h i)

/-- The exponentials of the row. -/
theorem v13_at (b : Fin 2) (h : Fin 16) (i j : Fin 2048) :
    val_main_v13 (F := Ideal) x0 x1 (ix4 b h i j) = expRow (srow x0 x1 b h i) j := by
  rw [val_main_v13_apply, val_main_v12_apply, v6_at, v11_at, Ideal.subf_def, Ideal.hostUnary_exp_def]
  rfl

/-- Their sum over the keys. -/
theorem v14_at (b : Fin 2) (h : Fin 16) (i : Fin 2048) :
    val_main_v14 (F := Ideal) x0 x1 (ix3 b h i) = ∑ j' : Fin 2048, expRow (srow x0 x1 b h i) j' := by
  rw [val_main_v14_apply, val_main_cst_3_apply, Ideal.ofBits_def, Ideal.ofBits_zero_f32, zero_add]
  refine Finset.sum_congr rfl fun k _ => ?_
  rw [idx14, v13_at]

theorem v16_at (b : Fin 2) (h : Fin 16) (i j : Fin 2048) :
    val_main_v16 (F := Ideal) x0 x1 (ix4 b h i j) = ∑ j' : Fin 2048, expRow (srow x0 x1 b h i) j' := by
  rw [val_main_v16_apply, val_main_v15_apply]
  exact (congrArg (val_main_v14 (F := Ideal) x0 x1) (idx_bcast b h i j)).trans (v14_at x0 x1 b h i)

/-- The quotient: the weights. -/
theorem v17_at (b : Fin 2) (h : Fin 16) (i j : Fin 2048) :
    val_main_v17 (F := Ideal) x0 x1 (ix4 b h i j) = weights x0 x1 b h i j := by
  rw [val_main_v17_apply, v13_at, v16_at, Ideal.hostDivf_def]
  rfl

end Stages

/-- The reference's weights are the specification's. -/
theorem weights_eq (x0 x1 : (⟨Cert.ReferenceIdeal.S2x16x2048x64, .f32⟩ : BufTy).Contents (Elt Ideal)) :
    Cert.ReferenceIdeal.Read.val_main_v17 (F := Ideal) x0 x1 = Cert.Attention.weightsArr x0 x1 := by
  funext x
  obtain ⟨b, h, i, j, rfl⟩ : ∃ b h i j, x = ix4 b h i j := ⟨x 0, x 1, x 2, x 3, eq_ix4 x⟩
  exact v17_at x0 x1 b h i j

/-- The reference's output is the specification's. -/
theorem output_eq (x0 x1 x2 : (⟨Cert.ReferenceIdeal.S2x16x2048x64, .f32⟩ : BufTy).Contents (Elt Ideal)) :
    Cert.ReferenceIdeal.Read.val_main_v18 (F := Ideal) x0 x1 x2 = Cert.Attention.outputArr x0 x1 x2 := by
  funext x
  obtain ⟨b, h, i, d, rfl⟩ : ∃ b h i d, x = ix4 b h i d := ⟨x 0, x 1, x 2, x 3, eq_ix4 x⟩
  rw [val_main_v18_apply]
  show _ = ∑ j : Fin 2048, weights x0 x1 b h i j * x2 (ix4 b h j d)
  refine Finset.sum_congr rfl fun k _ => ?_
  rw [lidx18, ridx18, v17_at]

end Cert.ReferenceIdeal.RefValue

end
-- ==== Proof.LibMatmulPlain.lean ====
/-
  Two general facts about rank-2 blocks at the ideal values, stated for any extents.

  * A kernel's matrix product of an m×k block by a k×n block into the zero accumulator, read at entry (a, b), is the
    plain sum over the contracted coordinate c of A(a, c) · B(c, b), whatever contraction precision the operation
    carries: at the ideal values the product into zero and the host's `dot_general` are the same sum over the
    contraction index, and the library already reads the host's plain product as that sum.
  * A one-row block [1, n] broadcast down m rows, read at (a, b), is the row's entry at column b.
-/
import Idealize.ShloMosaic.PureOps.Ideal.Laws
import Idealize.ShloMosaic.Lib.ValueIdx
import Idealize.ShloMosaic.Lib.StackMember
import Idealize.ShloMosaic.Lib.Pipeline.Value

noncomputable section

open scoped BigOperators

namespace Cert.LibMatmulPlain

open Idealize.ShloMosaic Idealize.ShloMosaic.ValueIdx

/-- The product of an m×k block by a k×n block into the zero accumulator, at the ideal values, read at (a, b):
    Σ_c A(a, c) · B(c, b). The precision argument plays no part: the ideal product is exact. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    FloatOps.matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec _ A B (ix2 a b)).symm.trans
      (StackMember.dotGeneral_plain_apply prec A B a b))

/-- A one-row block broadcast down the rows, read at (a, b), is the row at column b. -/
theorem rowBroadcast_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 0 b) := by
  refine broadcastTo_apply x h (ix2 a b) (ix2 0 b) fun ax => ?_
  match ax with
  | ⟨0, _⟩ => rfl
  | ⟨1, _⟩ =>
    show b.val = if n = 1 then 0 else b.val
    split
    · have := b.isLt; omega
    · rfl

end Cert.LibMatmulPlain

end
-- ==== Proof.KernelPayload.lean ====
/-
  One grid point's arithmetic, read index by index on the extended reals.

  At a grid point the body holds a query block [1, 512, 64] and the whole key and value blocks [1, 2048, 64] of one
  merged batch-head. It forms the 512 × 2048 scores — row r against key j is the inner product over the 64 features,
  the matrix product with the transposed keys into a zero accumulator, times the word for 0.125 —, takes along each
  row the maximum, subtracts it, takes the maximum of the shifted row once more (clamped below by the fold's start),
  subtracts that, exponentiates, and divides by the row's sum: the weights block. The output block is the weights
  block times the value block, row r against column d summed over the 2048 keys. Changes of float format are the
  identity on the extended reals, and a matrix product into zero is the plain sum of products.
-/
import proofs.«172985_j9354438771232_1_alg».proof.Proof.Gen.KernelIdeal.Skeleton
import proofs.«172985_j9354438771232_1_alg».proof.Proof.Spec
import proofs.«172985_j9354438771232_1_alg».proof.Proof.LibMatmulPlain
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

theorem dot_qk_plain : dot_S512x64_S64x2048_S512x2048_1_0_0_1_n_n = DotDims.plain 512 64 2048 := rfl
theorem dot_wv_plain : dot_S512x2048_S2048x64_S512x64_1_0_0_1_n_n = DotDims.plain 512 2048 64 := rfl

/-- A per-row value [512] viewed as a column [512, 1] and broadcast along the 2048 columns reads, at (r, j), the row's value. -/
theorem colBroadcast_apply (x : FVec Ideal S512 .f32) (r : Fin 512) (j : Fin 2048) :
    broadcastTo S512x2048 (shapeCast S512x1 x shapeCasts_S512_S512x1) broadcasts_S512x1_S512x2048 (ix2 r j) = x (ix1 r) := by
  refine (broadcastTo_apply _ broadcasts_S512x1_S512x2048 (ix2 r j) (ix2 r (0 : Fin 1)) fun a => ?_).trans ?_
  · match a with
    | ⟨0, _⟩ => rfl
    | ⟨1, _⟩ => rfl
  · refine shapeCast_apply x shapeCasts_S512_S512x1 (ix2 r (0 : Fin 1)) (ix1 r) ?_
    rw [Shape.rowMajor_val_one, Shape.rowMajor_val_two]
    show r.val = r.val * 1 + 0
    omega

/-- The index a row reduction inserts coordinate k into, at row r, is (r, k). -/
theorem lift_row (r : Fin 512) (k : Fin 2048) :
    reduces_S512x2048_S512.lift (ix1 r) k = ix2 r k :=
  funext fun a => Fin.ext (by match a with | ⟨0, _⟩ => rfl | ⟨1, _⟩ => rfl)

/-- A row sum of a [512, 2048] block at row r. -/
theorem rowSum_apply (x : FVec Ideal S512x2048 .f32) (hφ) (hacc) (r : Fin 512) :
    multiReduction (F := Ideal) .add [1] S512 x 0x00000000#32 reduces_S512x2048_S512 hφ hacc (ix1 r)
      = ∑ k : Fin 2048, x (ix2 r k) := by
  rw [Ideal.multiReduction_add_single]
  exact Finset.sum_congr rfl fun k _ => congrArg x (lift_row r k)

/-- A row maximum of a [512, 2048] block at row r. -/
theorem rowMax_apply (x : FVec Ideal S512x2048 .f32) (hφ) (hacc) (r : Fin 512) :
    multiReduction (F := Ideal) .maximumf [1] S512 x 0xFF800000#32 reduces_S512x2048_S512 hφ hacc (ix1 r)
      = Cert.Attention.rowMax (fun k => x (ix2 r k)) := by
  rw [Ideal.multiReduction_maximumf_single]
  unfold Cert.Attention.rowMax
  exact congrArg (Finset.fold max _ · Finset.univ) (funext fun k => congrArg x (lift_row r k))

theorem exp_apply {s : Shape} {φ : FTy} (a : FVec Ideal s φ) (i : s.Idx) : exp a i = Ideal.exp (a i) := rfl

/-- A [1, 512, 64] block viewed [512, 64] reads (0, r, d) at (r, d); likewise the [1, 2048, 64] blocks. -/
theorem dropUnit_q (v : Vec Ideal S1x512x64 .f32) (r : Fin 512) (d : Fin 64) :
    shapeCast S512x64 v shapeCasts_S1x512x64_S512x64 (ix2 r d) = v (ix3 0 r d) := by
  refine shapeCast_apply v shapeCasts_S1x512x64_S512x64 (ix2 r d) (ix3 0 r d) ?_
  rw [Shape.rowMajor_val_three, Shape.rowMajor_val_two]
  show (0 * 512 + r.val) * 64 + d.val = r.val * 64 + d.val
  omega
theorem dropUnit_kv (v : Vec Ideal S1x2048x64 .f32) (j : Fin 2048) (d : Fin 64) :
    shapeCast S2048x64 v shapeCasts_S1x2048x64_S2048x64 (ix2 j d) = v (ix3 0 j d) := by
  refine shapeCast_apply v shapeCasts_S1x2048x64_S2048x64 (ix2 j d) (ix3 0 j d) ?_
  rw [Shape.rowMajor_val_three, Shape.rowMajor_val_two]
  show (0 * 2048 + j.val) * 64 + d.val = j.val * 64 + d.val
  omega

/-- The transposed key block reads (j, d) at (d, j). -/
theorem transpose_k (x : FVec Ideal S2048x64 .bf16) (d : Fin 64) (j : Fin 2048) :
    transpose S64x2048 [1, 0] x transposes_S2048x64_p1_0_S64x2048 (ix2 d j) = x (ix2 j d) :=
  transpose_apply [1, 0] x transposes_S2048x64_p1_0_S64x2048 (ix2 d j) (ix2 j d) fun b => by
    match b with
    | ⟨0, _⟩ => rfl
    | ⟨1, _⟩ => rfl

/-- The scaled scores of a query block against a key block, as the body computes them. -/
def scoreBlk (v0 : Vec Ideal S1x512x64 .f32) (v2 : Vec Ideal S1x2048x64 .f32) : FVec Ideal S512x2048 .f32 :=
  mulf (matmul dot_S512x64_S64x2048_S512x2048_1_0_0_1_n_n none
      (truncf .bf16 (shapeCast S512x64 v0 shapeCasts_S1x512x64_S512x64) bitsLt_bf16_f32)
      (transpose S64x2048 [1, 0] (truncf .bf16 (shapeCast S2048x64 v2 shapeCasts_S1x2048x64_S2048x64) bitsLt_bf16_f32) transposes_S2048x64_p1_0_S64x2048)
      (constant S512x2048 .f32 0x00000000#32))
    (broadcast S512x2048 (Scalar.ofBits .f32 0x3E000000#32))

/-- At (r, j): the inner product of query row r and key row j over the 64 features, times the word for 0.125. -/
theorem scoreBlk_apply (v0 : Vec Ideal S1x512x64 .f32) (v2 : Vec Ideal S1x2048x64 .f32) (r : Fin 512) (j : Fin 2048) :
    scoreBlk v0 v2 (ix2 r j) = (∑ d : Fin 64, v0 (ix3 0 r d) * v2 (ix3 0 j d)) * Ideal.ofBits .f32 0x3E000000#32 := by
  unfold scoreBlk
  rw [mulf_apply]
  refine congrArg (· * _) ?_
  refine (Cert.LibMatmulPlain.matmul_plain_zero_apply none _ _ r j).trans ?_
  refine Finset.sum_congr rfl fun d _ => ?_
  rw [truncf_apply, dropUnit_q, transpose_k, truncf_apply, dropUnit_kv]

/-- A per-row value as a [512, 2048] block constant along each row. -/
def colB (v : FVec Ideal S512 .f32) : FVec Ideal S512x2048 .f32 :=
  broadcastTo S512x2048 (shapeCast S512x1 v shapeCasts_S512_S512x1) broadcasts_S512x1_S512x2048
theorem colB_apply (v : FVec Ideal S512 .f32) (r : Fin 512) (j : Fin 2048) : colB v (ix2 r j) = v (ix1 r) :=
  colBroadcast_apply v r j

/-- The row maxima and row sums of a block. -/
def rowMaxV (x : FVec Ideal S512x2048 .f32) : FVec Ideal S512 .f32 :=
  multiReduction .maximumf [1] S512 x 0xFF800000#32 reduces_S512x2048_S512 (.inl rfl) rfl
def rowSumV (x : FVec Ideal S512x2048 .f32) : FVec Ideal S512 .f32 :=
  multiReduction .add [1] S512 x 0x00000000#32 reduces_S512x2048_S512 (.inl rfl) rfl
theorem rowMaxV_apply (x : FVec Ideal S512x2048 .f32) (r : Fin 512) :
    rowMaxV x (ix1 r) = Cert.Attention.rowMax (fun k => x (ix2 r k)) := rowMax_apply x _ _ r
theorem rowSumV_apply (x : FVec Ideal S512x2048 .f32) (r : Fin 512) :
    rowSumV x (ix1 r) = ∑ k : Fin 2048, x (ix2 r k) := rowSum_apply x _ _ r

/-- A block shifted by its row maxima. -/
def shiftBlk (x : FVec Ideal S512x2048 .f32) : FVec Ideal S512x2048 .f32 := subf x (colB (rowMaxV x))
theorem shiftBlk_apply (x : FVec Ideal S512x2048 .f32) (r : Fin 512) (j : Fin 2048) :
    shiftBlk x (ix2 r j) = Cert.Attention.shifted (fun k => x (ix2 r k)) j := by
  unfold shiftBlk
  rw [subf_apply, colB_apply, rowMaxV_apply]
  rfl

/-- The exponentials: the shifted block shifted once more by the clamped row maxima of the shifted block. -/
def expBlk (x : FVec Ideal S512x2048 .f32) : FVec Ideal S512x2048 .f32 :=
  exp (subf (shiftBlk x) (colB (maximumf (broadcast S512 (Scalar.ofBits .f32 0xFF800000#32)) (rowMaxV (shiftBlk x)))))
theorem expBlk_apply (x : FVec Ideal S512x2048 .f32) (r : Fin 512) (j : Fin 2048) :
    expBlk x (ix2 r j) = Cert.Attention.expRow (fun k => x (ix2 r k)) j := by
  unfold expBlk
  rw [exp_apply, subf_apply, colB_apply, maximumf_apply, rowMaxV_apply, shiftBlk_apply]
  unfold Cert.Attention.expRow
  refine congrArg (fun z => Ideal.exp (_ - max _ (Cert.Attention.rowMax z))) (funext fun k => ?_)
  exact shiftBlk_apply x r k

/-- The softmax of a [512, 2048] block of scores along its rows. -/
def softBlk (x : FVec Ideal S512x2048 .f32) : FVec Ideal S512x2048 .f32 := divf (expBlk x) (colB (rowSumV (expBlk x)))
theorem softBlk_apply (x : FVec Ideal S512x2048 .f32) (r : Fin 512) (j : Fin 2048) :
    softBlk x (ix2 r j) = Cert.Attention.softRow (fun k => x (ix2 r k)) j := by
  unfold softBlk
  rw [divf_apply, colB_apply, rowSumV_apply, expBlk_apply]
  unfold Cert.Attention.softRow
  exact congrArg (Ideal.div _) (Finset.sum_congr rfl fun k _ => expBlk_apply x r k)

theorem pay2_eq (v0 : Vec Ideal S1x512x64 .f32) (v2 : Vec Ideal S1x2048x64 .f32) :
    k0_pay2 (F := Ideal) v0 v2 = softBlk (scoreBlk v0 v2) := rfl

/-- The weights block at (r, j): the softmax, along the keys, of query row r's scaled scores. -/
theorem pay2_apply (v0 : Vec Ideal S1x512x64 .f32) (v2 : Vec Ideal S1x2048x64 .f32) (r : Fin 512) (j : Fin 2048) :
    k0_pay2 (F := Ideal) v0 v2 (ix2 r j)
      = Cert.Attention.softRow (fun j' => (∑ d : Fin 64, v0 (ix3 0 r d) * v2 (ix3 0 j' d)) * Ideal.ofBits .f32 0x3E000000#32) j := by
  rw [pay2_eq, softBlk_apply]
  exact congrArg (fun s => Cert.Attention.softRow s j) (funext fun j' => scoreBlk_apply v0 v2 r j')

/-- The stored weights block [1, 512, 2048] reads the computed [512, 2048] block at (r, j). -/
theorem pay1_apply (v27 : FVec Ideal S512x2048 .f32) (r : Fin 512) (j : Fin 2048) :
    k0_pay1 (F := Ideal) v27 (ix3 0 r j) = v27 (ix2 r j) := by
  unfold k0_pay1
  refine shapeCast_apply v27 shapeCasts_S512x2048_S1x512x2048 (ix3 0 r j) (ix2 r j) ?_
  rw [Shape.rowMajor_val_three, Shape.rowMajor_val_two]
  show r.val * 2048 + j.val = (0 * 512 + r.val) * 2048 + j.val
  omega

/-- The stored output block at (r, d): the weights row against the value block's column d. -/
theorem pay3_apply (v0 : Vec Ideal S1x512x64 .f32) (v2 v4 : Vec Ideal S1x2048x64 .f32) (r : Fin 512) (d : Fin 64) :
    k0_pay3 (F := Ideal) v0 v2 v4 (ix3 0 r d) = ∑ j : Fin 2048, k0_pay2 (F := Ideal) v0 v2 (ix2 r j) * v4 (ix3 0 j d) := by
  unfold k0_pay3
  refine (shapeCast_apply _ shapeCasts_S512x64_S1x512x64 (ix3 0 r d) (ix2 r d) ?_).trans ?_
  · rw [Shape.rowMajor_val_three, Shape.rowMajor_val_two]
    show r.val * 64 + d.val = (0 * 512 + r.val) * 64 + d.val
    omega
  refine (Cert.LibMatmulPlain.matmul_plain_zero_apply none _ _ r d).trans ?_
  refine Finset.sum_congr rfl fun j _ => ?_
  rw [truncf_apply, truncf_apply, dropUnit_kv]

end Cert.KernelIdeal.Payload

end
-- ==== Proof.KernelOutputArr.lean ====
/-
  The output array after the run, as one function of the three arrays the region finds.

  The grid has the points (g, qi), g < 32 and qi < 4. At a point the query window holds block (g, qi, 0) of the
  queries (rows 512·qi … 512·qi + 511 of slab g), the key and value windows hold block (g, 0, 0) of theirs (all of
  slab g), and the output window's block (g, qi, 0) is written back with what the body stored: at (r, d) the
  weights of query row 512·qi + r against column d of the values. The blocks (g, qi, 0) tile the [32, 2048, 64]
  array, so after the last point it holds the attention output at every index.
-/
import proofs.«172985_j9354438771232_1_alg».proof.Proof.Gen.KernelIdeal.Frame
import proofs.«172985_j9354438771232_1_alg».proof.Proof.KernelPayload
import proofs.«172985_j9354438771232_1_alg».proof.Proof.Spec
import Idealize.ShloMosaic.Lib.Pipeline.Value

set_option maxRecDepth 16384

noncomputable section

namespace Cert.KernelIdeal.OutputArr

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The zero offsets of a whole-block access. -/
theorem hz : (![0, 0, 0] : Fin 3 → Nat) = fun _ => 0 := funext fun a => by fin_cases a <;> rfl

/-- The stored block at (r, d), from blocks that are the rows the point stages: the output at (g, i, d). -/
theorem block_output (q k v : Cert.Attention.QKV3.Idx → EReal)
    (v0 : Vec Ideal S1x512x64 .f32) (v2 v4 : Vec Ideal S1x2048x64 .f32)
    (g : Fin 32) (i : Fin 2048) (r : Fin 512) (d d' : Fin 64)
    (h0 : ∀ e : Fin 64, v0 (ix3 0 r e) = q (ix3 g i e))
    (h1 : ∀ (j : Fin 2048) (e : Fin 64), v2 (ix3 0 j e) = k (ix3 g j e))
    (h2 : ∀ j : Fin 2048, v4 (ix3 0 j d) = v (ix3 g j d')) :
    k0_pay3 (F := Ideal) v0 v2 v4 (ix3 0 r d) = Cert.Attention.output3 q k v g i d' := by
  rw [Cert.KernelIdeal.Payload.pay3_apply]
  unfold Cert.Attention.output3 Cert.Attention.weights3 Cert.Attention.score3
  refine Finset.sum_congr rfl fun j _ => ?_
  rw [Cert.KernelIdeal.Payload.pay2_apply, h2]
  refine congrArg (fun s => Cert.Attention.softRow s j * v (ix3 g j d')) (funext fun j' => ?_)
  refine congrArg (· * _) (Finset.sum_congr rfl fun e _ => ?_)
  rw [h0, h1]

/-- The printed index maps, decided over the grid: the query window moves with the output window, the key and
    value windows stay on the output's slab, and the ranges. -/
theorem idx_facts : ∀ t : Fin cfg0.N,
    win0_0.index t (0 : Fin 3) = win0_3.index t (0 : Fin 3)
    ∧ win0_0.index t (1 : Fin 3) = win0_3.index t (1 : Fin 3)
    ∧ win0_0.index t (2 : Fin 3) = 0
    ∧ win0_1.index t (0 : Fin 3) = win0_3.index t (0 : Fin 3)
    ∧ win0_1.index t (1 : Fin 3) = 0
    ∧ win0_1.index t (2 : Fin 3) = 0
    ∧ win0_2.index t (0 : Fin 3) = win0_3.index t (0 : Fin 3)
    ∧ win0_2.index t (1 : Fin 3) = 0
    ∧ win0_2.index t (2 : Fin 3) = 0
    ∧ win0_3.index t (0 : Fin 3) ≤ 31
    ∧ win0_3.index t (1 : Fin 3) ≤ 3
    ∧ win0_3.index t (2 : Fin 3) = 0 :=
  (by decide +kernel : ∀ t : Fin grid0.N, _)

/-- Every block (g, qi, 0) is some point's. -/
theorem idx_onto : ∀ (q0 : Fin 32) (q1 : Fin 4), ∃ t : Fin cfg0.N, win0_3.index t = ![q0.val, q1.val, 0] :=
  (by decide +kernel : ∀ (q0 : Fin 32) (q1 : Fin 4), ∃ t : Fin grid0.N, win0_3.index t = ![q0.val, q1.val, 0])

/-- What point t writes back is block t of the attention output of the arrays the region finds. -/
theorem flushed3_eq (c : Dev nD) (t : Fin cfg0.N) :
    (dats m 0 c).flushed 3 t = ((cfg0.win 3).blk t).view.read (Elt Ideal)
      (Cert.Attention.outputArr3 (V m c main_v0) (V m c main_v1) (V m c main_v2)) := by
  show (cfg0.win 3).cut (grid0.coords t) ((dats m 0 c).after 3 t) = _
  rw [after0_3]
  unfold out0_3
  rw [View.canon_unit_zero hz]
  simp only [View.ld_unit_zero (S := S1x512x64) hz, View.ld_unit_zero (S := S1x2048x64) hz]
  funext y
  obtain ⟨a, r, d, rfl⟩ : ∃ (a : Fin 1) (r : Fin 512) (d : Fin 64), y = ix3 a r d :=
    ⟨y 0, y 1, y 2, eq_ix3 (n0 := 1) (n1 := 512) (n2 := 64) y⟩
  obtain rfl : a = 0 := Subsingleton.elim _ _
  obtain ⟨e00, e01, e02, e10, e11, e12, e20, e21, e22, b0, b1, b2⟩ := idx_facts t
  show k0_pay3 (F := Ideal) (iblk m c 0 t) (iblk m c 1 t) (iblk m c 2 t) (ix3 0 r d)
    = Cert.Attention.outputArr3 (V m c main_v0) (V m c main_v1) (V m c main_v2) (((cfg0.win 3).blk t).view.emb (ix3 0 r d))
  unfold Cert.Attention.outputArr3
  refine block_output (V m c main_v0) (V m c main_v1) (V m c main_v2) _ _ _ _ _ r d _ (fun e => ?_) (fun j e => ?_) (fun j => ?_)
  · show V m c main_v0 (((cfg0.win 0).blk t).view.emb (ix3 0 r e)) = _
    refine congrArg (V m c main_v0) (funext fun a => Fin.ext ?_)
    match a with
    | ⟨0, _⟩ =>
      show win0_0.index t (0 : Fin 3) * 1 + 1 * 0 = win0_3.index t (0 : Fin 3) * 1 + 1 * 0
      omega
    | ⟨1, _⟩ =>
      show win0_0.index t (1 : Fin 3) * 512 + 1 * r.val = win0_3.index t (1 : Fin 3) * 512 + 1 * r.val
      omega
    | ⟨2, _⟩ =>
      show win0_0.index t (2 : Fin 3) * 64 + 1 * e.val = e.val
      omega
  · show V m c main_v1 (((cfg0.win 1).blk t).view.emb (ix3 0 j e)) = _
    refine congrArg (V m c main_v1) (funext fun a => Fin.ext ?_)
    match a with
    | ⟨0, _⟩ =>
      show win0_1.index t (0 : Fin 3) * 1 + 1 * 0 = win0_3.index t (0 : Fin 3) * 1 + 1 * 0
      omega
    | ⟨1, _⟩ =>
      show win0_1.index t (1 : Fin 3) * 2048 + 1 * j.val = j.val
      omega
    | ⟨2, _⟩ =>
      show win0_1.index t (2 : Fin 3) * 64 + 1 * e.val = e.val
      omega
  · show V m c main_v2 (((cfg0.win 2).blk t).view.emb (ix3 0 j d)) = _
    refine congrArg (V m c main_v2) (funext fun a => Fin.ext ?_)
    match a with
    | ⟨0, _⟩ =>
      show win0_2.index t (0 : Fin 3) * 1 + 1 * 0 = win0_3.index t (0 : Fin 3) * 1 + 1 * 0
      omega
    | ⟨1, _⟩ =>
      show win0_2.index t (1 : Fin 3) * 2048 + 1 * j.val = j.val
      omega
    | ⟨2, _⟩ =>
      show win0_2.index t (2 : Fin 3) * 64 + 1 * d.val = win0_3.index t (2 : Fin 3) * 64 + 1 * d.val
      omega

/-- An index of the array is in point t's block iff each coordinate is in the block's range on its axis. -/
theorem mem_blk3 (t : Fin cfg0.N) (i : S32x2048x64.Idx) :
    i ∈ ((cfg0.win 3).blk t).view.set ↔ ∀ a : Fin 3, win0_3.index t a * S1x512x64.size a ≤ (i a).val
      ∧ (i a).val < win0_3.index t a * S1x512x64.size a + S1x512x64.size a := by
  show i ∈ ((View.whole main_v3_0).slice (win0_3.rect t)).set ↔ _
  rw [View.set_slice_whole, Rect.mem_set_unit]
  exact Iff.rfl

/-- Every index (g, i, d) of the array is in the block of the point whose block index is (g, i / 512, 0). -/
theorem cover3 (i : S32x2048x64.Idx) :
    ∃ t : Fin cfg0.N, (cfg0.win 3).flush t = true ∧ i ∈ ((cfg0.win 3).blk t).view.set := by
  have hi0 : (i 0).val < 32 := (i 0).isLt
  have hi1 : (i 1).val < 2048 := (i 1).isLt
  have hi2 : (i 2).val < 64 := (i 2).isLt
  obtain ⟨t, ht⟩ := idx_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk3]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 64 ≤ (i 2).val ∧ (i 2).val < win0_3.index t (2 : Fin 3) * 64 + 64
    omega

/-- The output array after the run is the attention output of the arrays the region finds. -/
theorem final3 (c : Dev nD) : (dats m 0 c).arrAt 3 cfg0.N
    = Cert.Attention.outputArr3 (V m c main_v0) (V m c main_v1) (V m c main_v2) :=
  (dats m 0 c).arrAt_eq_of_cover 3 (Cert.Attention.outputArr3 (V m c main_v0) (V m c main_v1) (V m c main_v2))
    (fun t _ => flushed3_eq m c t) cover3

end Cert.KernelIdeal.OutputArr

end
-- ==== Proof.KernelWeightsArr.lean ====
/-
  The weights array after the kernel region: the merged-axis attention weights of the region's entry arrays.

  The region's grid is 32 × 4: point (g, qi) stages query rows 512·qi … 512·qi + 511 of group g (a [1, 512, 64] block),
  all 2048 key rows of group g (a [1, 2048, 64] block), and writes back the [1, 512, 2048] block of weights at
  (g, 512·qi, 0).  The body's stored block at (0, r, j) is the softmax along the keys of query row r's scaled scores;
  read where the array index says, that is the weights array's entry at (g, 512·qi + r, j).  The 128 blocks tile the
  [32, 2048, 2048] array, so the array ends holding the weights everywhere.
-/
import proofs.«172985_j9354438771232_1_alg».proof.Proof.Gen.KernelIdeal.Frame
import proofs.«172985_j9354438771232_1_alg».proof.Proof.KernelPayload
import proofs.«172985_j9354438771232_1_alg».proof.Proof.Spec
import Idealize.ShloMosaic.Lib.Pipeline.Value

set_option maxRecDepth 16384

noncomputable section

namespace Cert.KernelIdeal.WeightsArr

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- The body's accesses all start at the origin of their staging buffers. -/
theorem hz : (![0, 0, 0] : Fin 3 → Nat) = fun _ => 0 := funext fun a => by fin_cases a <;> rfl

/-- The printed index maps, decided over the grid: at every point the query block and the weights block sit at the same
    group and the same row block, the key block at the same group and row block 0, every block at column block 0, and
    the weights block's group and row block stay in range. -/
theorem idx_facts : ∀ t : Fin cfg0.N,
      win0_0.index t (0 : Fin 3) = win0_4.index t (0 : Fin 3)
    ∧ win0_0.index t (1 : Fin 3) = win0_4.index t (1 : Fin 3)
    ∧ win0_0.index t (2 : Fin 3) = 0
    ∧ win0_1.index t (0 : Fin 3) = win0_4.index t (0 : Fin 3)
    ∧ win0_1.index t (1 : Fin 3) = 0
    ∧ win0_1.index t (2 : Fin 3) = 0
    ∧ win0_4.index t (0 : Fin 3) ≤ 31
    ∧ win0_4.index t (1 : Fin 3) ≤ 3
    ∧ win0_4.index t (2 : Fin 3) = 0 :=
  (by decide +kernel : ∀ t : Fin grid0.N, _)

/-- Every (group, row block) is some point's. -/
theorem idx_onto : ∀ (q0 : Fin 32) (q1 : Fin 4), ∃ t : Fin cfg0.N, win0_4.index t = ![q0.val, q1.val, 0] :=
  (by decide +kernel : ∀ (q0 : Fin 32) (q1 : Fin 4), ∃ t : Fin grid0.N, win0_4.index t = ![q0.val, q1.val, 0])

/-- The stored weights block of any query and key blocks, at (0, r, j): the softmax along the keys of row r's scores. -/
theorem stored_apply (x0 : Vec Ideal S1x512x64 .f32) (x1 : Vec Ideal S1x2048x64 .f32) (r : Fin 512) (j : Fin 2048) :
    k0_pay1 (F := Ideal) (k0_pay2 (F := Ideal) x0 x1) (ix3 0 r j)
      = Cert.Attention.softRow (fun j' => (∑ d : Fin 64, x0 (ix3 0 r d) * x1 (ix3 0 j' d)) * Ideal.ofBits .f32 0x3E000000#32) j :=
  (Payload.pay1_apply _ r j).trans (Payload.pay2_apply x0 x1 r j)

/-- Point t's stored block, read at a block index, is the weights array of the entry arrays at the array index the
    block index names. -/
theorem block_at (c : Dev nD) (t : Fin cfg0.N) (y : S1x512x2048.Idx) :
    k0_pay1 (F := Ideal) (k0_pay2 (F := Ideal) (iblk m c 0 t) (iblk m c 1 t)) y
      = Cert.Attention.weightsArr3 (V m c main_v0) (V m c main_v1) (((cfg0.win 4).blk t).view.emb y) := by
  obtain ⟨y0, r, j, rfl⟩ : ∃ (y0 : Fin 1) (r : Fin 512) (j : Fin 2048), y = ix3 y0 r j := ⟨y 0, y 1, y 2, eq_ix3 y⟩
  obtain rfl : y0 = 0 := Subsingleton.elim _ _
  refine (stored_apply _ _ r j).trans ?_
  obtain ⟨e0, e1, e2, e3, e4, e5, b0, b1, e6⟩ := idx_facts t
  -- the array index the block index (0, r, j) names: (g, 512·qi + r, j)
  have hx2 : (((cfg0.win 4).blk t).view.emb (ix3 0 r j)) 2 = j :=
    Fin.ext (by show win0_4.index t (2 : Fin 3) * 2048 + 1 * j.val = j.val; omega)
  unfold Cert.Attention.weightsArr3 Cert.Attention.weights3
  rw [hx2]
  refine congrArg (fun s => Cert.Attention.softRow s j) (funext fun j' => ?_)
  unfold Cert.Attention.score3
  refine congrArg (· * Ideal.ofBits .f32 0x3E000000#32) (Finset.sum_congr rfl fun d _ => ?_)
  -- the query block at (0, r, d) is the query array at (g, 512·qi + r, d)
  have hq : iblk m c 0 t (ix3 0 r d)
      = V m c main_v0 (ix3 ((((cfg0.win 4).blk t).view.emb (ix3 0 r j)) 0) ((((cfg0.win 4).blk t).view.emb (ix3 0 r j)) 1) d) := by
    show V m c main_v0 (((cfg0.win 0).blk t).view.emb (ix3 0 r d)) = _
    refine congrArg (V m c main_v0) (funext fun a => Fin.ext ?_)
    match a with
    | ⟨0, _⟩ => show win0_0.index t (0 : Fin 3) * 1 + 1 * 0 = win0_4.index t (0 : Fin 3) * 1 + 1 * 0; omega
    | ⟨1, _⟩ => show win0_0.index t (1 : Fin 3) * 512 + 1 * r.val = win0_4.index t (1 : Fin 3) * 512 + 1 * r.val; omega
    | ⟨2, _⟩ => show win0_0.index t (2 : Fin 3) * 64 + 1 * d.val = d.val; omega
  -- the key block at (0, j', d) is the key array at (g, j', d)
  have hk : iblk m c 1 t (ix3 0 j' d)
      = V m c main_v1 (ix3 ((((cfg0.win 4).blk t).view.emb (ix3 0 r j)) 0) j' d) := by
    show V m c main_v1 (((cfg0.win 1).blk t).view.emb (ix3 0 j' d)) = _
    refine congrArg (V m c main_v1) (funext fun a => Fin.ext ?_)
    match a with
    | ⟨0, _⟩ => show win0_1.index t (0 : Fin 3) * 1 + 1 * 0 = win0_4.index t (0 : Fin 3) * 1 + 1 * 0; omega
    | ⟨1, _⟩ => show win0_1.index t (1 : Fin 3) * 2048 + 1 * j'.val = j'.val; omega
    | ⟨2, _⟩ => show win0_1.index t (2 : Fin 3) * 64 + 1 * d.val = d.val; omega
  rw [hq, hk]

/-- What point t writes back is block t of the weights array of the entry arrays. -/
theorem flushed_eq (c : Dev nD) (t : Fin cfg0.N) :
    (dats m 0 c).flushed 4 t
      = ((cfg0.win 4).blk t).view.read (Elt Ideal) (Cert.Attention.weightsArr3 (V m c main_v0) (V m c main_v1)) := by
  show (cfg0.win 4).cut (grid0.coords t) ((dats m 0 c).after 4 t) = _
  rw [after0_4]
  unfold out0_4
  rw [View.canon_unit_zero hz]
  simp only [View.ld_unit_zero (S := S1x512x64) hz, View.ld_unit_zero (S := S1x2048x64) hz]
  funext y
  exact block_at m c t y

/-- An index of the array is in point t's block iff each coordinate is in the block's range on its axis. -/
theorem mem_blk (t : Fin cfg0.N) (i : S32x2048x2048.Idx) :
    i ∈ ((cfg0.win 4).blk t).view.set ↔ ∀ a : Fin 3, win0_4.index t a * S1x512x2048.size a ≤ (i a).val
      ∧ (i a).val < win0_4.index t a * S1x512x2048.size a + S1x512x2048.size a := by
  show i ∈ ((View.whole main_v3_1).slice (win0_4.rect t)).set ↔ _
  rw [View.set_slice_whole, Rect.mem_set_unit]
  exact Iff.rfl

/-- The blocks tile the array: index (g, i, j) is in the block of the point with group g and row block i / 512. -/
theorem cover (i : S32x2048x2048.Idx) :
    ∃ t : Fin cfg0.N, (cfg0.win 4).flush t = true ∧ i ∈ ((cfg0.win 4).blk t).view.set := by
  have hi0 : (i 0).val < 32 := (i 0).isLt
  have hi1 : (i 1).val < 2048 := (i 1).isLt
  have hi2 : (i 2).val < 2048 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 2048 ≤ (i 2).val ∧ (i 2).val < win0_4.index t (2 : Fin 3) * 2048 + 2048; omega

/-- THE ARRAY after the run: the merged-axis attention weights of the region's entry arrays. -/
theorem final4 (c : Dev nD) :
    (dats m 0 c).arrAt 4 cfg0.N = Cert.Attention.weightsArr3 (V m c main_v0) (V m c main_v1) :=
  (dats m 0 c).arrAt_eq_of_cover 4 (Cert.Attention.weightsArr3 (V m c main_v0) (V m c main_v1))
    (fun t _ => flushed_eq m c t) (fun i => cover i)

end Cert.KernelIdeal.WeightsArr

end
-- ==== Proof.KernelArrays.lean ====
/-
  The two arrays the kernel region leaves, on the merged batch-head axis.

  The grid's 128 points (32 merged batch-heads × 4 query blocks of 512 rows) each write one block [1, 512, 64] of the
  output array and one block [1, 512, 2048] of the weights array; the blocks tile both arrays, and what each point
  writes is the restriction to its block of one whole-array function of the region's entry arrays: the merged-axis
  attention output and weights.
-/
import proofs.«172985_j9354438771232_1_alg».proof.Proof.KernelOutputArr
import proofs.«172985_j9354438771232_1_alg».proof.Proof.KernelWeightsArr

set_option maxRecDepth 16384

noncomputable section

namespace Cert.KernelIdeal.Arrays

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ)

/-- After the run the output array is the merged-axis attention output of the entry arrays. -/
theorem final3 (c : Dev nD) : (dats m 0 c).arrAt 3 cfg0.N
    = Cert.Attention.outputArr3 (V m c main_v0) (V m c main_v1) (V m c main_v2) :=
  Cert.KernelIdeal.OutputArr.final3 m c

/-- After the run the weights array is the merged-axis attention weights of the entry arrays. -/
theorem final4 (c : Dev nD) : (dats m 0 c).arrAt 4 cfg0.N
    = Cert.Attention.weightsArr3 (V m c main_v0) (V m c main_v1) :=
  Cert.KernelIdeal.WeightsArr.final4 m c

end Cert.KernelIdeal.Arrays

end
-- ==== Proof.Reshape.lean ====
/-
  Merging batch and head into one axis and splitting it again.

  A [2, 16, 2048, n] array and a [32, 2048, n] array with the same elements in row-major order agree entry by entry:
  the entry at (b, h, i, j) of the first is the entry at (16·b + h, i, j) of the second, since
  ((b·16 + h)·2048 + i)·n + j is the row-major position of both.  Read through this correspondence, the
  merged-axis attention (scores scaled by the word for 0.125) is the four-axis attention (scores divided by the
  word for 8.0): the inner products agree term by term, the two scalings agree on every extended real, and
  everything after the scores is one function of the row of scores.
-/
import proofs.«172985_j9354438771232_1_alg».proof.Proof.Spec
import Idealize.ShloMosaic.Lib.Pipeline.Value
import Idealize.ShloMosaic.Lib.ValueIdx

noncomputable section

namespace Cert.Attention

open Idealize.ShloMosaic Idealize.ShloMosaic.ValueIdx

/-- The merged coordinate of batch b and head h: g = 16·b + h. -/
def merge (b : Fin 2) (h : Fin 16) : Fin 32 := ⟨16 * b.val + h.val, by omega⟩

/-- A four-axis array recast to three axes, read at (16·b + h, i, d), is the array at (b, h, i, d). -/
theorem merged_apply {α : Type} (Q : QKV.Idx → α) (h1 : QKV.ShapeCasts QKV3)
    (b : Fin 2) (h : Fin 16) (i : Fin 2048) (d : Fin 64) :
    shapeCast QKV3 Q h1 (ix3 (merge b h) i d) = Q (ix4 b h i d) := by
  refine shapeCast_apply _ _ _ _ ?_
  rw [Shape.rowMajor_val_four, Shape.rowMajor_val_three]
  show ((b.val * 16 + h.val) * 2048 + i.val) * 64 + d.val = ((16 * b.val + h.val) * 2048 + i.val) * 64 + d.val
  omega

/-- The merged-axis score at g = 16·b + h is the four-axis score at (b, h). -/
theorem score3_merge (Q K : QKV.Idx → EReal) (h1 : QKV.ShapeCasts QKV3)
    (b : Fin 2) (h : Fin 16) (i j : Fin 2048) :
    score3 (shapeCast QKV3 Q h1) (shapeCast QKV3 K h1) (merge b h) i j = score Q K b h i j := by
  unfold score3 score
  rw [scale_eq]
  simp only [merged_apply]

/-- The merged-axis weights at g = 16·b + h are the four-axis weights at (b, h). -/
theorem weights3_merge (Q K : QKV.Idx → EReal) (h1 : QKV.ShapeCasts QKV3)
    (b : Fin 2) (h : Fin 16) (i j : Fin 2048) :
    weights3 (shapeCast QKV3 Q h1) (shapeCast QKV3 K h1) (merge b h) i j = weights Q K b h i j := by
  unfold weights3 weights
  simp only [score3_merge]

/-- The merged-axis output at g = 16·b + h is the four-axis output at (b, h). -/
theorem output3_merge (Q K V : QKV.Idx → EReal) (h1 : QKV.ShapeCasts QKV3)
    (b : Fin 2) (h : Fin 16) (i : Fin 2048) (d : Fin 64) :
    output3 (shapeCast QKV3 Q h1) (shapeCast QKV3 K h1) (shapeCast QKV3 V h1) (merge b h) i d
      = output Q K V b h i d := by
  unfold output3 output
  simp only [weights3_merge, merged_apply]

/-- The merged-axis weights array, split back into batch and head, is the four-axis weights array. -/
theorem weightsArr_reshape (Q K : QKV.Idx → EReal) (h1 : QKV.ShapeCasts QKV3) (h2 : WW3.ShapeCasts WW) :
    shapeCast WW (weightsArr3 (shapeCast QKV3 Q h1) (shapeCast QKV3 K h1)) h2 = weightsArr Q K := by
  funext x
  obtain ⟨b, h, i, j, rfl⟩ : ∃ b h i j, x = ix4 b h i j := ⟨x 0, x 1, x 2, x 3, eq_ix4 x⟩
  refine (shapeCast_apply _ _ _ (ix3 (merge b h) i j) ?_).trans ?_
  · rw [Shape.rowMajor_val_three, Shape.rowMajor_val_four]
    show ((16 * b.val + h.val) * 2048 + i.val) * 2048 + j.val = ((b.val * 16 + h.val) * 2048 + i.val) * 2048 + j.val
    omega
  · exact weights3_merge Q K h1 b h i j

/-- The merged-axis output array, split back into batch and head, is the four-axis output array. -/
theorem outputArr_reshape (Q K V : QKV.Idx → EReal) (h1 : QKV.ShapeCasts QKV3) (h3 : QKV3.ShapeCasts QKV) :
    shapeCast QKV (outputArr3 (shapeCast QKV3 Q h1) (shapeCast QKV3 K h1) (shapeCast QKV3 V h1)) h3
      = outputArr Q K V := by
  funext x
  obtain ⟨b, h, i, d, rfl⟩ : ∃ b h i d, x = ix4 b h i d := ⟨x 0, x 1, x 2, x 3, eq_ix4 x⟩
  refine (shapeCast_apply _ _ _ (ix3 (merge b h) i d) ?_).trans ?_
  · rw [Shape.rowMajor_val_three, Shape.rowMajor_val_four]
    show ((16 * b.val + h.val) * 2048 + i.val) * 64 + d.val = ((b.val * 16 + h.val) * 2048 + i.val) * 64 + d.val
    omega
  · exact output3_merge Q K V h1 b h i d

end Cert.Attention

end
-- ==== Proof.KernelRun.lean ====
/-
  The idealized kernel program's run, with its two results named.

  The program recasts its three [2, 16, 2048, 64] arguments to [32, 2048, 64] (batch and head merged), runs its one
  kernel region on them, and recasts the region's two result arrays back to four axes.  The region leaves the
  merged-axis attention output and weights of its three entry arrays; the entry arrays are the arguments recast; so the
  program's two results are the four-axis output and weights of the arguments, and the arguments end as they began.
-/
import proofs.«172985_j9354438771232_1_alg».proof.Proof.KernelArrays
import proofs.«172985_j9354438771232_1_alg».proof.Proof.Reshape
import Idealize.ShloMosaic.Lib.StableHlo.Run
import Idealize.ShloMosaic.Lib.Pipeline.FrameSuffix
import Idealize.ShloMosaic.Lib.Pipeline.Value

set_option maxRecDepth 16384

noncomputable section

namespace Cert.KernelIdeal.RunValue

open Idealize.ShloMosaic Idealize.ShloMosaic.TcCoe Idealize.SL.Sem Idealize.ShloMosaic.ValueIdx
open Idealize.ShloMosaic.StableHlo
open Cert.KernelIdeal Cert.KernelIdeal.Gen

variable (m : (ℓ : Loc nD τ sig) → Buf (Elt Ideal) ℓ) (ρ : Dev nD → PrngReg)

/-! ### The region's entry arrays: the arguments recast -/

/-- At the region's entry the first staged array is the first argument recast to [32, 2048, 64]. -/
theorem entry0 (c : Dev nD) : (V m c main_v0 : S32x2048x64.Idx → EReal)
    = shapeCast S32x2048x64 (m ((c.tc : Thread nD τ).loc main_arg0)) shapeCasts_S2x16x2048x64_S32x2048x64 := by
  show StableHlo.after hostOps0 (fun b => m (c, b)) (Proc.devRef .tc main_v0) = _
  after_results
  rfl

/-- The second staged array is the second argument recast. -/
theorem entry1 (c : Dev nD) : (V m c main_v1 : S32x2048x64.Idx → EReal)
    = shapeCast S32x2048x64 (m ((c.tc : Thread nD τ).loc main_arg1)) shapeCasts_S2x16x2048x64_S32x2048x64 := by
  show StableHlo.after hostOps0 (fun b => m (c, b)) (Proc.devRef .tc main_v1) = _
  after_results
  rfl

/-- The third staged array is the third argument recast. -/
theorem entry2 (c : Dev nD) : (V m c main_v2 : S32x2048x64.Idx → EReal)
    = shapeCast S32x2048x64 (m ((c.tc : Thread nD τ).loc main_arg2)) shapeCasts_S2x16x2048x64_S32x2048x64 := by
  show StableHlo.after hostOps0 (fun b => m (c, b)) (Proc.devRef .tc main_v2) = _
  after_results
  rfl

/-! ### The two results after the region -/

/-- The first result: the region's output array recast to four axes is the attention output of the arguments. -/
theorem tail4 (c : Dev nD) : Pipeline.afterTail₀ cfgs (dats m) 0 (V0 m) [hostOps1] c main_v4
    = Cert.Attention.outputArr (m ((c.tc : Thread nD τ).loc main_arg0)) (m ((c.tc : Thread nD τ).loc main_arg1))
        (m ((c.tc : Thread nD τ).loc main_arg2)) := by
  unfold Pipeline.afterTail₀
  show StableHlo.after hostOps1 _ (Proc.devRef .tc main_v4) = _
  after_results
  have e : Pipeline.withArrays (cfgs 0).spec c (V0 m c) (fun w => (dats m 0 c).arrAt w (cfgs 0).N) (Proc.devRef .tc main_v3_0)
      = Cert.Attention.outputArr3 (V m c main_v0) (V m c main_v1) (V m c main_v2) :=
    (Pipeline.withArrays_arr spec0 launch0.win.arr_inj c _ _ 3).trans (Arrays.final3 m c)
  rw [e, entry0, entry1, entry2]
  exact Cert.Attention.outputArr_reshape _ _ _ _ _

/-- The second result: the region's weights array recast to four axes is the attention weights of the arguments. -/
theorem tail5 (c : Dev nD) : Pipeline.afterTail₀ cfgs (dats m) 0 (V0 m) [hostOps1] c main_v5
    = Cert.Attention.weightsArr (m ((c.tc : Thread nD τ).loc main_arg0)) (m ((c.tc : Thread nD τ).loc main_arg1)) := by
  unfold Pipeline.afterTail₀
  show StableHlo.after hostOps1 _ (Proc.devRef .tc main_v5) = _
  after_results
  have e : Pipeline.withArrays (cfgs 0).spec c (V0 m c) (fun w => (dats m 0 c).arrAt w (cfgs 0).N) (Proc.devRef .tc main_v3_1)
      = Cert.Attention.weightsArr3 (V m c main_v0) (V m c main_v1) :=
    (Pipeline.withArrays_arr spec0 launch0.win.arr_inj c _ _ 4).trans (Arrays.final4 m c)
  rw [e, entry0, entry1]
  exact Cert.Attention.weightsArr_reshape _ _ _ _

/-! ### The run -/

/-- Every run of the program ends with the attention output in its first result, the attention weights in its second,
    and its three arguments as launched. -/
theorem run : θ_run (defs (F := Ideal)) (onTc (τ := τ) (main (F := Ideal))) ⟨m, fun _ => 0, ρ⟩ fun r => ∀ c : Dev nD,
        r.2.mem ((c.tc : Thread nD τ).loc main_v4) = Cert.Attention.outputArr (m ((c.tc : Thread nD τ).loc main_arg0)) (m ((c.tc : Thread nD τ).loc main_arg1)) (m ((c.tc : Thread nD τ).loc main_arg2))
      ∧ r.2.mem ((c.tc : Thread nD τ).loc main_v5) = Cert.Attention.weightsArr (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v4 (Pipeline.mem_restRefs_of main_v4 (by decide) (by decide))).trans (tail4 m c),
     ((h c).2 main_v5 (Pipeline.mem_restRefs_of main_v5 (by decide) (by decide))).trans (tail5 m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.RunValue

end
-- ==== Proof.lean ====
/-
  Scaled dot-product attention, kernel against reference, over the extended reals.

  Both programs compute, for every batch b, head h and query row i, the scores of the row against the 2048 keys
  (inner products over the 64 features, scaled by 1/8), the softmax of that row with the row maximum subtracted
  twice (once explicitly, once inside the stable softmax), and the weighted sum of the value rows. The kernel merges
  batch and head into one axis of 32, cuts the query rows into 4 blocks of 512, multiplies the scores by 0.125 and
  keeps whole key and value blocks per merged batch-head; the reference works on the four-axis arrays and divides
  the scores by 8.0. At the ideal values a change of float format is the identity, a matrix product into a zero
  accumulator and the host's contraction are the same sum, a reduction is a fold or a sum over the reduced axis, and
  division by 8 is multiplication by 1/8 on every extended real — so the two results, the output and the weights, are
  the same functions of the three arguments (Cert.Attention.outputArr, Cert.Attention.weightsArr), index by index.
  No finiteness of the inputs is used.

  The three frames are the generated ones (the reference's is its run with the results dropped); the idealization
  rewrote nothing, so its conjunct is trivial.
-/
import proofs.«172985_j9354438771232_1_alg».proof.Defs
import proofs.«172985_j9354438771232_1_alg».proof.Proof.Gen.Kernel
import proofs.«172985_j9354438771232_1_alg».proof.Proof.Gen.Kernel.Skeleton
import proofs.«172985_j9354438771232_1_alg».proof.Proof.Gen.Kernel.Launch
import proofs.«172985_j9354438771232_1_alg».proof.Proof.Gen.Kernel.Points
import proofs.«172985_j9354438771232_1_alg».proof.Proof.Gen.Kernel.Frame
import proofs.«172985_j9354438771232_1_alg».proof.Proof.Gen.KernelIdeal
import proofs.«172985_j9354438771232_1_alg».proof.Proof.Gen.KernelIdeal.Skeleton
import proofs.«172985_j9354438771232_1_alg».proof.Proof.Gen.KernelIdeal.Launch
import proofs.«172985_j9354438771232_1_alg».proof.Proof.Gen.KernelIdeal.Points
import proofs.«172985_j9354438771232_1_alg».proof.Proof.Gen.KernelIdeal.Frame
import proofs.«172985_j9354438771232_1_alg».proof.Proof.Gen.ReferenceIdeal
import proofs.«172985_j9354438771232_1_alg».proof.Proof.Gen.Pre_finite_inputs
import proofs.«172985_j9354438771232_1_alg».proof.Proof.Gen.ReferenceIdeal.Run
import proofs.«172985_j9354438771232_1_alg».proof.Proof.Gen.ReferenceIdeal.Read
import proofs.«172985_j9354438771232_1_alg».proof.Proof.RefValue
import proofs.«172985_j9354438771232_1_alg».proof.Proof.KernelRun
import Idealize.ShloMosaic.Adequacy
import Idealize.ShloMosaic.Init

noncomputable section

namespace Cert.Proof

open Idealize.ShloMosaic Idealize.SL.Sem

/-- The word-level kernel program terminates without a fault and leaves its arguments as launched. -/
theorem frame_kernel : Cert.frame_Kernel := fun m ρ _ => Cert.Kernel.Gen.frame m ρ

/-- So does the kernel program read at the ideal values. -/
theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on queries, keys and values, the kernel's run ends with the attention output and weights of
    its arguments, and the reference's run with the same two functions of its own, equal, arguments. -/
theorem algebraic : Cert.algebraic_KernelIdeal_ReferenceIdeal := by
  intro m ρ m' ρ' _ hagree
  refine ⟨_, _, Cert.KernelIdeal.RunValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v18_eq, Cert.ReferenceIdeal.RefValue.output_eq,
      (hagree c).1, (hagree c).2.1, (hagree c).2.2]
  · rw [Cert.ReferenceIdeal.Read.val_main_v17_eq, Cert.ReferenceIdeal.RefValue.weights_eq,
      (hagree c).1, (hagree c).2.1]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
